-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S8x2048x2048 : Shape := ⟨3, ![8, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x512x2048, .f32⟩
  | .local _ .vmem, ⟨5, _⟩ => ⟨S1x512x2048, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  reduces_S2048x128_S2048 : S2048x128.Reduces [1] S2048
  shapeCasts_S2048_S2048x1 : S2048.ShapeCasts S2048x1
  broadcasts_S2048x1_S2048x128 : S2048x1.Broadcasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x2048x128.size a
  hwx0_0 : ∀ i : grid0.Coords, EltTy.bits .f32 = 32 ∨ (Rect.block (s := S8x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S8x2048x1, .f32⟩
  | .hbm, ⟨10, _⟩ => ⟨S8x2048x128, .f32⟩
  | .hbm, ⟨11, _⟩ => ⟨S8x2048x128, .f32⟩
  | .hbm, ⟨12, _⟩ => ⟨S8x2048x128, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x128, .f32⟩
  | .hbm, ⟨21, _⟩ => ⟨S8x2048x128, .f32⟩
  | .hbm, ⟨22, _⟩ => ⟨S8x2048x2048, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  dot_S8x2048x128_S8x2048x128_S8x2048x2048_2_2_1_1_0_0_wf : DotDims.WF S8x2048x128 S8x2048x128 S8x2048x2048 [2] [2] [1] [1] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf

class Facts : Prop extends Facts₀ where

variable [Facts]
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.KernelEntry.lean ====
import proofs.«113737_j15530601742895_1_alg».proof.Proof.Gen.KernelIdeal.Skeleton
import proofs.«113737_j15530601742895_1_alg».proof.Proof.LibContractRhsT
import proofs.«113737_j15530601742895_1_alg».proof.Proof.LibKeepdims
import Idealize.ShloMosaic.Lib.ValueLayout

/-!
# One block of the kernel's result, entry by entry

At a grid point the body holds 512 rows of the first argument and all 2048 rows of the second (one batch of each). It
scales every row of both blocks by the reciprocal root of the row's floored squared length and contracts the scaled
blocks over their last axis into the zero accumulator. So entry `(p, q)` of the stored block is the sum over `d` of the
scaled entry `(p, d)` of the first block times the scaled entry `(q, d)` of the second. The change of format before the
contraction is the identity on the extended reals.
-/

noncomputable section

namespace Cert.KernelIdeal.Entry

open Cert.KernelIdeal Cert.KernelIdeal.Gen
open Idealize.ShloMosaic Idealize.ShloMosaic.ValueIdx

/-- A block of `R` rows scaled as the body scales it, read at `(p, d)`: the entry times `rsqrt` of the larger of the
    row's sum of squares and the floor. -/
theorem scaledRows_apply {R : ℕ} (v : FVec Ideal (⟨2, ![R, 128]⟩ : Shape) .f32)
    (hred : (⟨2, ![R, 128]⟩ : Shape).Reduces [1] ⟨1, ![R]⟩) (hφ : FKind.Formats .f32)
    (hacc : (0x00000000#32 : BitVec (FTy.bits .f32)) = FKind.add.neutral .f32 hφ)
    (hsc : (⟨1, ![R]⟩ : Shape).ShapeCasts ⟨2, ![R, 1]⟩) (hb : (⟨2, ![R, 1]⟩ : Shape).Broadcasts ⟨2, ![R, 128]⟩)
    (hlt : FTy.bits .bf16 < FTy.bits .f32) (p : Fin R) (d : Fin 128) :
    truncf .bf16 (mulf v (broadcastTo ⟨2, ![R, 128]⟩ (rsqrt (maximumf
        (shapeCast ⟨2, ![R, 1]⟩ (multiReduction .add [1] ⟨1, ![R]⟩ (mulf v v) 0x00000000#32 hred hφ hacc) hsc)
        (broadcast ⟨2, ![R, 1]⟩ (Scalar.ofBits (F := Ideal) .f32 0x322BCC77#32)))) hb)) hlt (ix2 p d)
      = v (ix2 p d) * Ideal.rsqrt (max (∑ k : Fin 128, v (ix2 p k) * v (ix2 p k)) (Ideal.ofBits .f32 0x322BCC77#32)) := by
  rw [truncf_apply, mulf_apply, LibKeepdims.broadcastTo_a1_ab_apply]
  show v (ix2 p d) * Ideal.rsqrt (max (shapeCast ⟨2, ![R, 1]⟩ (multiReduction .add [1] ⟨1, ![R]⟩ (mulf v v) 0x00000000#32 hred hφ hacc) hsc (ix2 p (0 : Fin 1))) (Ideal.ofBits .f32 0x322BCC77#32)) = _
  rw [LibKeepdims.shapeCast_a_a1_apply, LibKeepdims.rowSum_apply]
  rfl

/-- The stored block at `(u, p, q)`: the inner product over `d` of the scaled row `p` of the first loaded block and the
    scaled row `q` of the second. -/
theorem pay_apply (v0 : Vec Ideal S1x512x128 .f32) (v2 : Vec Ideal S1x2048x128 .f32) (u : Fin 1) (p : Fin 512) (q : Fin 2048) :
    k0_pay1 (F := Ideal) v0 v2 (ix3 u p q)
      = ∑ d : Fin 128,
          (v0 (ix3 (0 : Fin 1) p d) * Ideal.rsqrt (max (∑ k : Fin 128, v0 (ix3 (0 : Fin 1) p k) * v0 (ix3 (0 : Fin 1) p k)) (Ideal.ofBits .f32 0x322BCC77#32)))
          * (v2 (ix3 (0 : Fin 1) q d) * Ideal.rsqrt (max (∑ k : Fin 128, v2 (ix3 (0 : Fin 1) q k) * v2 (ix3 (0 : Fin 1) q k)) (Ideal.ofBits .f32 0x322BCC77#32))) := by
  unfold k0_pay1
  refine (shapeCast_ab_1ab_apply _ _ u p q).trans ?_
  refine (Cert.LibContractRhsT.matmul_zero_apply 512 128 2048 none _ _ p q).trans ?_
  refine Finset.sum_congr rfl fun d _ => ?_
  refine congrArg₂ (· * ·) ?_ ?_
  · refine (scaledRows_apply (shapeCast S512x128 v0 shapeCasts_S1x512x128_S512x128) reduces_S512x128_S512 _ _
      shapeCasts_S512_S512x1 broadcasts_S512x1_S512x128 bitsLt_bf16_f32 p d).trans ?_
    simp only [shapeCast_1ab_ab_apply]
  · refine (scaledRows_apply (shapeCast S2048x128 v2 shapeCasts_S1x2048x128_S2048x128) reduces_S2048x128_S2048 _ _
      shapeCasts_S2048_S2048x1 broadcasts_S2048x1_S2048x128 bitsLt_bf16_f32 q d).trans ?_
    simp only [shapeCast_1ab_ab_apply]

end Cert.KernelIdeal.Entry

end
-- ==== Proof.Spec.lean ====
import Idealize.ShloMosaic.PureOps.Ideal
import Idealize.ShloMosaic.Lib.ValueIdx

/-!
# Cosine similarity of every pair of rows, batch by batch

For `x, y : [8, 2048, 128]` the result at `(b, i, j)` is the inner product of row `i` of `x[b]` and row `j` of `y[b]`,
each row first scaled by the reciprocal square root of its squared length floored at a small positive constant:
`∑_d (x[b,i,d] · rsqrt(max(∑_k x[b,i,k]², ε))) · (y[b,j,d] · rsqrt(max(∑_k y[b,j,k]², ε)))`, on the extended reals.
-/

noncomputable section

namespace Cert.Cosine

open Idealize.ShloMosaic Idealize.ShloMosaic.ValueIdx

/-- The floor under a row's squared length: the binary32 value nearest `1e-8`, the same word in both programs. -/
abbrev floorSq : EReal := Ideal.ofBits .f32 0x322BCC77#32

/-- Entry `d` of row `r` of batch `b`, scaled by the reciprocal root of the row's floored squared length. -/
def scaled (x : (⟨3, ![8, 2048, 128]⟩ : Shape).Idx → EReal) (b : Fin 8) (r : Fin 2048) (d : Fin 128) : EReal :=
  x (ix3 b r d) * Ideal.rsqrt (max (∑ k : Fin 128, x (ix3 b r k) * x (ix3 b r k)) floorSq)

/-- The whole result: at `(b, i, j)` the inner product of the scaled rows `i` of `x[b]` and `j` of `y[b]`. -/
def sim (x y : (⟨3, ![8, 2048, 128]⟩ : Shape).Idx → EReal) : (⟨3, ![8, 2048, 2048]⟩ : Shape).Idx → EReal :=
  fun i => ∑ d : Fin 128, scaled x (i 0) (i 1) d * scaled y (i 0) (i 2) d

end Cert.Cosine

end
-- ==== Proof.KernelArray.lean ====
import proofs.«113737_j15530601742895_1_alg».proof.Proof.Gen.KernelIdeal.Value
import proofs.«113737_j15530601742895_1_alg».proof.Proof.KernelEntry
import proofs.«113737_j15530601742895_1_alg».proof.Proof.Spec

/-!
# The kernel's result array is the cosine similarity

Grid point `t = (b, i)` of the 8 × 4 grid stages rows `512·i … 512·i + 511` of batch `b` of the first argument, all 2048
rows of batch `b` of the second, and writes back rows `512·i … 512·i + 511` of batch `b` of the result. The stored block
at `(u, p, q)` is the inner product of scaled row `p` of the first block and scaled row `q` of the second, that is
`Cosine.sim` of the two argument arrays at `(b, 512·i + p, q)`: every point writes back its block of one whole-array
function. The 32 blocks tile the result (row `r` of batch `b` lies in the block of point `(b, r / 512)`), so after the
run the result array is that function.
-/

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Cosine

variable (m : (ℓ : Loc nD τ sig) → Buf (Elt Ideal) ℓ) (ρ : Dev nD → PrngReg)

theorem zeroOff : (![0, 0, 0] : Fin 3 → Nat) = fun _ => 0 := funext fun a => by fin_cases a <;> rfl

/-- The printed index maps over the 32 grid points: the first argument's block follows the result's block on the batch
    and row axes, the second argument's on the batch axis only and always starts at row 0; no window moves along the last
    axis; the result's block indices stay below 8 and 4. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 7 ∧ win0_2.index t (1 : Fin 3) ≤ 3 :=
  (by decide +kernel : ∀ t : Fin grid0.N, _)

/-- Every (batch, row-tile) pair is some grid point's result block. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- One stored entry against the whole-array function: if row `p` of the first loaded block is row `i` of batch `b` of
    `X` and row `q` of the second loaded block is row `j` of batch `b` of `Y`, the stored block at `(u, p, q)` is
    `sim X Y` at `(b, i, j)`. -/
theorem entry_eq (x0 : Vec Ideal S1x512x128 .f32) (x1 : Vec Ideal S1x2048x128 .f32)
    (X Y : (⟨3, ![8, 2048, 128]⟩ : Shape).Idx → EReal) (b : Fin 8) (i j : Fin 2048) (u : Fin 1) (p : Fin 512) (q : Fin 2048)
    (h0 : ∀ d : Fin 128, x0 (ix3 (0 : Fin 1) p d) = X (ix3 b i d)) (h1 : ∀ d : Fin 128, x1 (ix3 (0 : Fin 1) q d) = Y (ix3 b j d)) :
    k0_pay1 (F := Ideal) x0 x1 (ix3 u p q) = sim X Y (ix3 b i j) := by
  rw [Entry.pay_apply]
  unfold sim scaled
  simp only [h0, h1]

/-- WHAT POINT `t` WRITES BACK is block `t` of `sim` of the argument arrays as the region finds them. -/
theorem flushed_eq (c : Dev nD) (t : Fin cfg0.N) :
    (dats m 0 c).flushed 2 t = ((cfg0.win 2).blk t).view.read (Elt Ideal) (sim (V m c main_arg0) (V m c main_arg1)) := by
  rw [Value.flushed2]
  unfold out0_2
  rw [View.canon_unit_zero zeroOff]
  simp only [View.ld_unit_zero (S := S1x512x128) zeroOff, View.ld_unit_zero (S := S1x2048x128) zeroOff]
  obtain ⟨e00, e01, e02, e10, e11, e12, e22, l0, l1⟩ := idx_facts t
  funext y
  obtain ⟨u, p, q, rfl⟩ : ∃ (u : Fin 1) (p : Fin 512) (q : Fin 2048), y = ix3 u p q := ⟨y 0, y 1, y 2, eq_ix3 y⟩
  have hu : u.val = 0 := by omega
  have hp : p.val < 512 := p.isLt
  have hq : q.val < 2048 := q.isLt
  have hemb : ((cfg0.win 2).blk t).view.emb (ix3 u p q)
      = ix3 (⟨win0_2.index t (0 : Fin 3), by omega⟩ : Fin 8) (⟨win0_2.index t (1 : Fin 3) * 512 + p.val, by omega⟩ : Fin 2048) q := by
    funext a; apply Fin.ext
    match a with
    | ⟨0, _⟩ => show win0_2.index t (0 : Fin 3) * 1 + 1 * u.val = win0_2.index t (0 : Fin 3); omega
    | ⟨1, _⟩ => show win0_2.index t (1 : Fin 3) * 512 + 1 * p.val = win0_2.index t (1 : Fin 3) * 512 + p.val; omega
    | ⟨2, _⟩ => show win0_2.index t (2 : Fin 3) * 2048 + 1 * q.val = q.val; omega
  show k0_pay1 (F := Ideal) (iblk m c 0 t) (iblk m c 1 t) (ix3 u p q)
    = sim (V m c main_arg0) (V m c main_arg1) (((cfg0.win 2).blk t).view.emb (ix3 u p q))
  rw [hemb]
  refine entry_eq (iblk m c 0 t) (iblk m c 1 t) (V m c main_arg0) (V m c main_arg1)
    (⟨win0_2.index t (0 : Fin 3), by omega⟩ : Fin 8) (⟨win0_2.index t (1 : Fin 3) * 512 + p.val, by omega⟩ : Fin 2048) q u p q ?_ ?_
  · intro d
    have hd : d.val < 128 := d.isLt
    show V m c main_arg0 (((cfg0.win 0).blk t).view.emb (ix3 (0 : Fin 1) p d)) = V m c main_arg0 _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 512 + 1 * p.val = win0_2.index t (1 : Fin 3) * 512 + p.val; omega
    | ⟨2, _⟩ => show win0_0.index t (2 : Fin 3) * 128 + 1 * d.val = d.val; omega
  · intro d
    have hd : d.val < 128 := d.isLt
    show V m c main_arg1 (((cfg0.win 1).blk t).view.emb (ix3 (0 : Fin 1) q d)) = V m c main_arg1 _
    refine congrArg (V m c main_arg1) (funext fun a => Fin.ext ?_)
    match a with
    | ⟨0, _⟩ => show win0_1.index t (0 : Fin 3) * 1 + 1 * 0 = win0_2.index t (0 : Fin 3); omega
    | ⟨1, _⟩ => show win0_1.index t (1 : Fin 3) * 2048 + 1 * q.val = q.val; omega
    | ⟨2, _⟩ => show win0_1.index t (2 : Fin 3) * 128 + 1 * d.val = d.val; omega

/-- An index of the result array is in point `t`'s block iff each coordinate is in the block's range on its axis. -/
theorem mem_blk (t : Fin cfg0.N) (i : S8x2048x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v0).slice (win0_2.rect t)).set ↔ _
  rw [View.set_slice_whole, Rect.mem_set_unit]
  exact Iff.rfl

/-- The blocks tile the result: `(b, r, j)` lies in the block of the point whose result block is `(b, r / 512, 0)`. -/
theorem cover (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- THE RESULT ARRAY after the run: `sim` of the two argument arrays as launched. -/
theorem final (c : Dev nD) :
    (dats m 0 c).arrAt 2 cfg0.N = sim (m ((c : Thread nD τ).loc main_arg0)) (m ((c : Thread nD τ).loc main_arg1)) :=
  (dats m 0 c).arrAt_eq_of_cover 2 (sim (V m c main_arg0) (V m c main_arg1)) (fun t _ => flushed_eq m c t) cover

/-- The kernel's run re-posted: the result array at `sim` of the arguments, the arguments unchanged. -/
theorem run : θ_run defs (onTc (τ := τ) (main (F := Ideal))) ⟨m, fun _ => 0, ρ⟩ fun r => ∀ c : Dev nD,
      r.2.mem ((c : Thread nD τ).loc main_v0) = sim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
import proofs.«113737_j15530601742895_1_alg».proof.Proof.Gen.ReferenceIdeal.Read
import proofs.«113737_j15530601742895_1_alg».proof.Proof.Spec

/-!
# The reference computes the cosine similarity

The reference scales every row of each argument by the reciprocal root of its floored squared length (a sum over the
last axis started from zero, kept as a column, floored, `rsqrt`, broadcast back, multiplied in) and then contracts
the last axes of the two scaled arrays batch by batch. Read stage by stage at an index, that is `Cosine.sim`.
-/

noncomputable section

namespace Cert.ReferenceIdeal.RefValue

open Cert.ReferenceIdeal Cert.ReferenceIdeal.Gen Cert.ReferenceIdeal.Read
open Idealize.ShloMosaic Idealize.ShloMosaic.ValueIdx Cert.Cosine

/-- The row a scaled entry's norm is summed over: entry `(b, r, d)` of the broadcast column comes from the column at
    `(b, r, 0)`, that from the row sums at `(b, r)`, whose `k`-th summand is the square at `(b, r, k)`. -/
theorem sumIdx0 (b : Fin 8) (r : Fin 2048) (d k : Fin 128) :
    idx_main_v1 (idx_main_v2 (idx_main_v6 (ix3 b r d))) k = ix3 b r k :=
  funext fun a => Fin.ext (by match a with | ⟨0, _⟩ => rfl | ⟨1, _⟩ => rfl | ⟨2, _⟩ => rfl)

theorem sumIdx1 (b : Fin 8) (r : Fin 2048) (d k : Fin 128) :
    idx_main_v9 (idx_main_v10 (idx_main_v14 (ix3 b r d))) k = ix3 b r k :=
  funext fun a => Fin.ext (by match a with | ⟨0, _⟩ => rfl | ⟨1, _⟩ => rfl | ⟨2, _⟩ => rfl)

/-- The contraction's left operand at `(b, r, d)` is the scaled entry of the first argument. -/
theorem left_apply (x : (⟨S8x2048x128, .f32⟩ : BufTy).Contents (Elt Ideal)) (b : Fin 8) (r : Fin 2048) (d : Fin 128) :
    val_main_v7 (F := Ideal) x (ix3 b r d) = scaled x b r d := by
  rw [val_main_v7_apply, val_main_v6_apply, val_main_v5_apply, val_main_v4_apply, val_main_v2_apply, val_main_v1_apply,
    val_main_v3_apply, val_main_cst_0_apply, val_main_cst_apply]
  simp only [val_main_v0_apply, sumIdx0, Ideal.mulf_def, Ideal.maximumf_def, Ideal.hostUnary_rsqrt_def, Ideal.ofBits_def,
    Ideal.ofBits_zero_f32, zero_add]
  rfl

/-- The contraction's right operand at `(b, r, d)` is the scaled entry of the second argument. -/
theorem right_apply (y : (⟨S8x2048x128, .f32⟩ : BufTy).Contents (Elt Ideal)) (b : Fin 8) (r : Fin 2048) (d : Fin 128) :
    val_main_v15 (F := Ideal) y (ix3 b r d) = scaled y b r d := by
  rw [val_main_v15_apply, val_main_v14_apply, val_main_v13_apply, val_main_v12_apply, val_main_v10_apply, val_main_v9_apply,
    val_main_v11_apply, val_main_cst_2_apply, val_main_cst_1_apply]
  simp only [val_main_v8_apply, sumIdx1, Ideal.mulf_def, Ideal.maximumf_def, Ideal.hostUnary_rsqrt_def, Ideal.ofBits_def,
    Ideal.ofBits_zero_f32, zero_add]
  rfl

/-- The reference's result is the cosine similarity of its two arguments: at `(b, i, j)` the batched contraction sums,
    over `d`, the left operand at `(b, i, d)` times the right one at `(b, j, d)`. -/
theorem result_eq (x y : (⟨S8x2048x128, .f32⟩ : BufTy).Contents (Elt Ideal)) :
    val_main_v16 (F := Ideal) x y = sim x y := by
  funext i
  obtain ⟨b, p, q, rfl⟩ : ∃ (b : Fin 8) (p : Fin 2048) (q : Fin 2048), i = ix3 b p q := ⟨i 0, i 1, i 2, eq_ix3 i⟩
  rw [val_main_v16_apply]
  refine Finset.sum_congr rfl fun d _ => ?_
  have el : lidx_main_v16 (ix3 b p q) d = ix3 b p d :=
    funext fun a => Fin.ext (by match a with | ⟨0, _⟩ => rfl | ⟨1, _⟩ => rfl | ⟨2, _⟩ => rfl)
  have er : ridx_main_v16 (ix3 b p q) d = ix3 b q d :=
    funext fun a => Fin.ext (by match a with | ⟨0, _⟩ => rfl | ⟨1, _⟩ => rfl | ⟨2, _⟩ => rfl)
  rw [el, er, left_apply, right_apply]

end Cert.ReferenceIdeal.RefValue

end
-- ==== Proof.lean ====
/- Cosine similarity of every pair of rows of two [8, 2048, 128] arrays, batch by batch: a Pallas kernel over an 8 × 4 grid
   against a jnp reference that normalises both arguments and contracts them with one batched einsum.

   Both programs scale each row by the reciprocal square root of its squared length floored at the same binary32 constant
   and take inner products of scaled rows: at `(b, i, j)` the result is
   `∑_d (x[b,i,d] · rsqrt(max(∑_k x[b,i,k]², ε))) · (y[b,j,d] · rsqrt(max(∑_k y[b,j,k]², ε)))` (`Cosine.sim`, Proof/Spec.lean).
   On the extended reals the kernel's narrowing of the scaled rows before the contraction is the identity, its contraction
   into a zero accumulator and the reference's `dot_general` are the same sum over `d`, and the two row sums are the
   same sum over `k` (the reference's starts from a zero it adds). No law beyond reading both sides entry by entry is
   needed, so the finiteness of the inputs is never used.

   The kernel side: Proof/KernelEntry.lean reads one stored block at an entry, Proof/KernelArray.lean shows each grid
   point writes back its block of `Cosine.sim` of the whole arguments and that the 32 blocks tile the result.
   The reference side: Proof/RefValue.lean reads the reference's stages at an index down to the same function.
   The idealization rewrote nothing, so `preserves` is `True`. -/
import proofs.«113737_j15530601742895_1_alg».proof.Defs
import proofs.«113737_j15530601742895_1_alg».proof.Proof.Gen.Kernel
import proofs.«113737_j15530601742895_1_alg».proof.Proof.Gen.Kernel.Skeleton
import proofs.«113737_j15530601742895_1_alg».proof.Proof.Gen.Kernel.Launch
import proofs.«113737_j15530601742895_1_alg».proof.Proof.Gen.Kernel.Points
import proofs.«113737_j15530601742895_1_alg».proof.Proof.Gen.Kernel.Frame
import proofs.«113737_j15530601742895_1_alg».proof.Proof.Gen.KernelIdeal
import proofs.«113737_j15530601742895_1_alg».proof.Proof.Gen.KernelIdeal.Skeleton
import proofs.«113737_j15530601742895_1_alg».proof.Proof.Gen.KernelIdeal.Launch
import proofs.«113737_j15530601742895_1_alg».proof.Proof.Gen.KernelIdeal.Points
import proofs.«113737_j15530601742895_1_alg».proof.Proof.Gen.KernelIdeal.Frame
import proofs.«113737_j15530601742895_1_alg».proof.Proof.Gen.ReferenceIdeal
import proofs.«113737_j15530601742895_1_alg».proof.Proof.Gen.Pre_finite_inputs
import proofs.«113737_j15530601742895_1_alg».proof.Proof.Gen.KernelIdeal.Value
import proofs.«113737_j15530601742895_1_alg».proof.Proof.Gen.ReferenceIdeal.Run
import proofs.«113737_j15530601742895_1_alg».proof.Proof.Gen.ReferenceIdeal.Read
import proofs.«113737_j15530601742895_1_alg».proof.Proof.KernelArray
import proofs.«113737_j15530601742895_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's result both end at
    `Cosine.sim` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
